-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x2 : Shape := ⟨2, ![8388608, 2]⟩
abbrev S3x2 : Shape := ⟨2, ![3, 2]⟩
abbrev S3 : Shape := ⟨1, ![3]⟩
abbrev S2x3 : Shape := ⟨2, ![2, 3]⟩
abbrev S2 : Shape := ⟨1, ![2]⟩
abbrev S1x2 : Shape := ⟨2, ![1, 2]⟩
abbrev S1 : Shape := ⟨1, ![1]⟩
abbrev S_ : Shape := ⟨0, ![]⟩

class Facts : Prop where
  bcast_S_S8388608x2 : S_.BroadcastsInDim S8388608x2 (![] : Fin 0 → Fin S8388608x2.rank)
  reducesTo_S8388608x2_S_d0_1 : S8388608x2.ReducesTo [0, 1] S_
  h_S_ : 0 < S_.numel
  bcast_S_S3x2 : S_.BroadcastsInDim S3x2 (![] : Fin 0 → Fin S3x2.rank)
  reducesTo_S3x2_S_d0_1 : S3x2.ReducesTo [0, 1] S_
  bcast_S_S3 : S_.BroadcastsInDim S3 (![] : Fin 0 → Fin S3.rank)
  reducesTo_S3_S_d0 : S3.ReducesTo [0] S_
  bcast_S_S2x3 : S_.BroadcastsInDim S2x3 (![] : Fin 0 → Fin S2x3.rank)
  reducesTo_S2x3_S_d0_1 : S2x3.ReducesTo [0, 1] S_
  bcast_S_S2 : S_.BroadcastsInDim S2 (![] : Fin 0 → Fin S2.rank)
  reducesTo_S2_S_d0 : S2.ReducesTo [0] S_
  bcast_S_S1x2 : S_.BroadcastsInDim S1x2 (![] : Fin 0 → Fin S1x2.rank)
  reducesTo_S1x2_S_d0_1 : S1x2.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S2 .f32) (main_arg5 : FVec F S1x2 .f32) (main_arg6 : FVec F S1 .f32) (main_v13 : IVec S_ 1) (main_v16 : IVec S2x3 1) : IVec S_ 1 :=
  let main_c_5 : IVec S_ 1 := constantI S_ 1 1#1
  let main_v17 : IVec S_ 1 := (fun x v => Host.reduce IntOp.andi x v reducesTo_S2x3_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S1x2 .f32 := Host.absf main_arg5
  let main_cst_8 : FVec F S_ .f32 := constant S_ .f32 0x7F800000#32
  let main_v25 : FVec F S1x2 .f32 := broadcastInDim S1x2 ![] bcast_S_S1x2 main_cst_8
  let main_v26 : IVec S1x2 1 := cmpf .olt main_v24 main_v25
  let main_c_9 : IVec S_ 1 := constantI S_ 1 1#1
  let main_v27 : IVec S_ 1 := (fun x v => Host.reduce IntOp.andi x v reducesTo_S1x2_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S8388608x2 .f32) (main_arg1 : FVec F S3x2 .f32) (main_arg2 : FVec F S3 .f32) (main_arg3 : FVec F S2x3 .f32) (main_arg4 : FVec F S2 .f32) (main_arg5 : FVec F S1x2 .f32) (main_arg6 : FVec F S1 .f32) : IVec S_ 1 :=
  let main_v0 : FVec F S8388608x2 .f32 := Host.absf main_arg0
  let main_cst : FVec F S_ .f32 := constant S_ .f32 0x7F800000#32
  let main_v1 : FVec F S8388608x2 .f32 := broadcastInDim S8388608x2 ![] bcast_S_S8388608x2 main_cst
  let main_v2 : IVec S8388608x2 1 := cmpf .olt main_v0 main_v1
  let main_c : IVec S_ 1 := constantI S_ 1 1#1
  let main_v3 : IVec S_ 1 := (fun x v => Host.reduce IntOp.andi x v reducesTo_S8388608x2_S_d0_1 h_S_) main_v2 main_c
  let main_v4 : FVec F S3x2 .f32 := Host.absf main_arg1
  let main_cst_0 : FVec F S_ .f32 := constant S_ .f32 0x7F800000#32
  let main_v5 : FVec F S3x2 .f32 := broadcastInDim S3x2 ![] bcast_S_S3x2 main_cst_0
  let main_v6 : IVec S3x2 1 := cmpf .olt main_v4 main_v5
  let main_c_1 : IVec S_ 1 := constantI S_ 1 1#1
  let main_v7 : IVec S_ 1 := (fun x v => Host.reduce IntOp.andi x v reducesTo_S3x2_S_d0_1 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S2x3 .f32 := Host.absf main_arg3
  let main_cst_4 : FVec F S_ .f32 := constant S_ .f32 0x7F800000#32
  let main_v15 : FVec F S2x3 .f32 := broadcastInDim S2x3 ![] bcast_S_S2x3 main_cst_4
  let main_v16 : IVec S2x3 1 := cmpf .olt main_v14 main_v15
  fn_part1 (F := F) main_arg4 main_arg5 main_arg6 main_v13 main_v16
-- ==== Kernel.lean ====
abbrev S8388608x2 : Shape := ⟨2, ![8388608, 2]⟩
abbrev S3x2 : Shape := ⟨2, ![3, 2]⟩
abbrev S3 : Shape := ⟨1, ![3]⟩
abbrev S2x3 : Shape := ⟨2, ![2, 3]⟩
abbrev S2 : Shape := ⟨1, ![2]⟩
abbrev S1x2 : Shape := ⟨2, ![1, 2]⟩
abbrev S1 : Shape := ⟨1, ![1]⟩
abbrev S8388608x3 : Shape := ⟨2, ![8388608, 3]⟩
abbrev S8388608x1 : Shape := ⟨2, ![8388608, 1]⟩
abbrev S8192x2 : Shape := ⟨2, ![8192, 2]⟩
abbrev S8192x3 : Shape := ⟨2, ![8192, 3]⟩
abbrev S8192x1 : Shape := ⟨2, ![8192, 1]⟩
abbrev S1x3 : Shape := ⟨2, ![1, 3]⟩
abbrev S3x1 : Shape := ⟨2, ![3, 1]⟩
abbrev S2x1 : Shape := ⟨2, ![2, 1]⟩
abbrev S1x1 : Shape := ⟨2, ![1, 1]⟩
abbrev S8388608 : Shape := ⟨1, ![8388608]⟩

abbrev nBuf : Space → Nat
  | .hbm => 11
  | .vmem => 14
  | .smem => 0
  | _ => 0

abbrev bufTy : (tb : Table) → Fin (tcTables nBuf tb) → BufTy
  | .hbm, ⟨0, _⟩ => ⟨S8388608x2, .f32⟩
  | .hbm, ⟨1, _⟩ => ⟨S3x2, .f32⟩
  | .hbm, ⟨2, _⟩ => ⟨S3, .f32⟩
  | .hbm, ⟨3, _⟩ => ⟨S2x3, .f32⟩
  | .hbm, ⟨4, _⟩ => ⟨S2, .f32⟩
  | .hbm, ⟨5, _⟩ => ⟨S1x2, .f32⟩
  | .hbm, ⟨6, _⟩ => ⟨S1, .f32⟩
  | .hbm, ⟨7, _⟩ => ⟨S8388608x3, .f32⟩
  | .hbm, ⟨8, _⟩ => ⟨S8388608x2, .f32⟩
  | .hbm, ⟨9, _⟩ => ⟨S8388608x1, .f32⟩
  | .hbm, ⟨10, _⟩ => ⟨S8388608, .f32⟩
  | .local _ .vmem, ⟨0, _⟩ => ⟨S8192x2, .f32⟩
  | .local _ .vmem, ⟨1, _⟩ => ⟨S8192x2, .f32⟩
  | .local _ .vmem, ⟨2, _⟩ => ⟨S3x2, .f32⟩
  | .local _ .vmem, ⟨3, _⟩ => ⟨S3, .f32⟩
  | .local _ .vmem, ⟨4, _⟩ => ⟨S2x3, .f32⟩
  | .local _ .vmem, ⟨5, _⟩ => ⟨S2, .f32⟩
  | .local _ .vmem, ⟨6, _⟩ => ⟨S1x2, .f32⟩
  | .local _ .vmem, ⟨7, _⟩ => ⟨S1, .f32⟩
  | .local _ .vmem, ⟨8, _⟩ => ⟨S8192x3, .f32⟩
  | .local _ .vmem, ⟨9, _⟩ => ⟨S8192x3, .f32⟩
  | .local _ .vmem, ⟨10, _⟩ => ⟨S8192x2, .f32⟩
  | .local _ .vmem, ⟨11, _⟩ => ⟨S8192x2, .f32⟩
  | .local _ .vmem, ⟨12, _⟩ => ⟨S8192x1, .f32⟩
  | .local _ .vmem, ⟨13, _⟩ => ⟨S8192x1, .f32⟩
  | _, _ => ⟨S8388608x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8192x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8192x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S8192x2_S8192x2_0_0 : ∀ a, (![0, 0] : Fin 2 → Nat) a + S8192x2.size a ≤ S8192x2.size a
  h_S8192x2 : 0 < S8192x2.numel
  inb_S3x2_S3x2_0_0 : ∀ a, (![0, 0] : Fin 2 → Nat) a + S3x2.size a ≤ S3x2.size a
  h_S3x2 : 0 < S3x2.numel
  inb_S3_S3_0 : ∀ a, (![0] : Fin 1 → Nat) a + S3.size a ≤ S3.size a
  h_S3 : 0 < S3.numel
  inb_S2x3_S2x3_0_0 : ∀ a, (![0, 0] : Fin 2 → Nat) a + S2x3.size a ≤ S2x3.size a
  h_S2x3 : 0 < S2x3.numel
  inb_S2_S2_0 : ∀ a, (![0] : Fin 1 → Nat) a + S2.size a ≤ S2.size a
  h_S2 : 0 < S2.numel
  inb_S1x2_S1x2_0_0 : ∀ a, (![0, 0] : Fin 2 → Nat) a + S1x2.size a ≤ S1x2.size a
  h_S1x2 : 0 < S1x2.numel
  inb_S1_S1_0 : ∀ a, (![0] : Fin 1 → Nat) a + S1.size a ≤ S1.size a
  h_S1 : 0 < S1.numel
  shapeCasts_S3_S1x3 : S3.ShapeCasts S1x3
  shapeCasts_S1x3_S1x3 : S1x3.ShapeCasts S1x3
  broadcasts_S1x3_S8192x3 : S1x3.Broadcasts S8192x3
  slices_S8192x2_o0_0_S8192x1 : S8192x2.Slices ![0, 0] S8192x1
  slices_S3x2_o0_0_S3x1 : S3x2.Slices ![0, 0] S3x1
  shapeCasts_S3x1_S3 : S3x1.ShapeCasts S3
  broadcasts_S8192x1_S8192x3 : S8192x1.Broadcasts S8192x3
  slices_S8192x2_o0_1_S8192x1 : S8192x2.Slices ![0, 1] S8192x1
  slices_S3x2_o0_1_S3x1 : S3x2.Slices ![0, 1] S3x1
  shapeCasts_S2_S1x2 : S2.ShapeCasts S1x2
  shapeCasts_S1x2_S1x2 : S1x2.ShapeCasts S1x2
  broadcasts_S1x2_S8192x2 : S1x2.Broadcasts S8192x2
  slices_S8192x3_o0_0_S8192x1 : S8192x3.Slices ![0, 0] S8192x1
  slices_S2x3_o0_0_S2x1 : S2x3.Slices ![0, 0] S2x1
  shapeCasts_S2x1_S2 : S2x1.ShapeCasts S2
  broadcasts_S8192x1_S8192x2 : S8192x1.Broadcasts S8192x2
  slices_S8192x3_o0_1_S8192x1 : S8192x3.Slices ![0, 1] S8192x1
  slices_S2x3_o0_1_S2x1 : S2x3.Slices ![0, 1] S2x1
  slices_S8192x3_o0_2_S8192x1 : S8192x3.Slices ![0, 2] S8192x1
  slices_S2x3_o0_2_S2x1 : S2x3.Slices ![0, 2] S2x1
  shapeCasts_S1_S1x1 : S1.ShapeCasts S1x1
  shapeCasts_S1x1_S1x1 : S1x1.ShapeCasts S1x1
  broadcasts_S1x1_S8192x1 : S1x1.Broadcasts S8192x1
  slices_S1x2_o0_0_S1x1 : S1x2.Slices ![0, 0] S1x1
  shapeCasts_S1x1_S1 : S1x1.ShapeCasts S1
  slices_S1x2_o0_1_S1x1 : S1x2.Slices ![0, 1] S1x1
  inb_S8192x3_S8192x3_0_0 : ∀ a, (![0, 0] : Fin 2 → Nat) a + S8192x3.size a ≤ S8192x3.size a
  h_S8192x3 : 0 < S8192x3.numel
  inb_S8192x1_S8192x1_0_0 : ∀ a, (![0, 0] : Fin 2 → Nat) a + S8192x1.size a ≤ S8192x1.size a
  h_S8192x1 : 0 < S8192x1.numel
  shapeCasts_S8388608x1_S8388608 : S8388608x1.ShapeCasts S8388608
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x2.size a ≤ S8388608x2.size a
  hwx0_0 : ∀ i : grid0.Coords, EltTy.bits .f32 = 32 ∨ (Rect.block (s := S8388608x2) S8192x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x2.size a ≤ S3x2.size a
  hwx0_1 : ∀ i : grid0.Coords, EltTy.bits .f32 = 32 ∨ (Rect.block (s := S3x2) S3x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3.size a ≤ S3.size a
  hwx0_2 : ∀ i : grid0.Coords, EltTy.bits .f32 = 32 ∨ (Rect.block (s := S3) S3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x3.size a ≤ S2x3.size a
  hwx0_3 : ∀ i : grid0.Coords, EltTy.bits .f32 = 32 ∨ (Rect.block (s := S2x3) S2x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2.size a ≤ S2.size a
  hwx0_4 : ∀ i : grid0.Coords, EltTy.bits .f32 = 32 ∨ (Rect.block (s := S2) S2.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2.size a ≤ S1x2.size a
  hwx0_5 : ∀ i : grid0.Coords, EltTy.bits .f32 = 32 ∨ (Rect.block (s := S1x2) S1x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x3.size a ≤ S8388608x3.size a
  hwx0_7 : ∀ i : grid0.Coords, EltTy.bits .f32 = 32 ∨ (Rect.block (s := S8388608x3) S8192x3.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8192x2.size a ≤ S8388608x2.size a
  hwx0_8 : ∀ i : grid0.Coords, EltTy.bits .f32 = 32 ∨ (Rect.block (s := S8388608x2) S8192x2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8192x1.size a ≤ S8388608x1.size a
  hwx0_9 : ∀ i : grid0.Coords, EltTy.bits .f32 = 32 ∨ (Rect.block (s := S8388608x1) S8192x1.size (cc0_transform_9 i) (hinb0_9 i)).WholeWords (EltTy.packing .f32)

variable [Facts₀]

abbrev win0_0 : Pipeline.Window sig grid0 :=
  Pipeline.Window.ofSpec (Memref.whole main_arg0) S8192x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S8192x3.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S8192x2.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S8192x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8388608x2 : Shape := ⟨2, ![8388608, 2]⟩
abbrev S3x2 : Shape := ⟨2, ![3, 2]⟩
abbrev S3 : Shape := ⟨1, ![3]⟩
abbrev S2x3 : Shape := ⟨2, ![2, 3]⟩
abbrev S2 : Shape := ⟨1, ![2]⟩
abbrev S1x2 : Shape := ⟨2, ![1, 2]⟩
abbrev S1 : Shape := ⟨1, ![1]⟩
abbrev S8388608x3 : Shape := ⟨2, ![8388608, 3]⟩
abbrev S1x3 : Shape := ⟨2, ![1, 3]⟩
abbrev S_ : Shape := ⟨0, ![]⟩
abbrev S2x1 : Shape := ⟨2, ![2, 1]⟩
abbrev S8388608x1 : Shape := ⟨2, ![8388608, 1]⟩
abbrev S1x1 : Shape := ⟨2, ![1, 1]⟩
abbrev S8388608 : Shape := ⟨1, ![8388608]⟩

abbrev nBuf : Space → Nat
  | .hbm => 37
  | .vmem => 0
  | .smem => 0
  | _ => 0

abbrev bufTy : (tb : Table) → Fin (tcTables nBuf tb) → BufTy
  | .hbm, ⟨0, _⟩ => ⟨S8388608x2, .f32⟩
  | .hbm, ⟨1, _⟩ => ⟨S3x2, .f32⟩
  | .hbm, ⟨2, _⟩ => ⟨S3, .f32⟩
  | .hbm, ⟨3, _⟩ => ⟨S2x3, .f32⟩
  | .hbm, ⟨4, _⟩ => ⟨S2, .f32⟩
  | .hbm, ⟨5, _⟩ => ⟨S1x2, .f32⟩
  | .hbm, ⟨6, _⟩ => ⟨S1, .f32⟩
  | .hbm, ⟨7, _⟩ => ⟨S2x3, .f32⟩
  | .hbm, ⟨8, _⟩ => ⟨S8388608x3, .f32⟩
  | .hbm, ⟨9, _⟩ => ⟨S1x3, .f32⟩
  | .hbm, ⟨10, _⟩ => ⟨S8388608x3, .f32⟩
  | .hbm, ⟨11, _⟩ => ⟨S8388608x3, .f32⟩
  | .hbm, ⟨12, _⟩ => ⟨S_, .f32⟩
  | .hbm, ⟨13, _⟩ => ⟨S8388608x3, .f32⟩
  | .hbm, ⟨14, _⟩ => ⟨S8388608x3, .f32⟩
  | .hbm, ⟨15, _⟩ => ⟨S3x2, .f32⟩
  | .hbm, ⟨16, _⟩ => ⟨S8388608x2, .f32⟩
  | .hbm, ⟨17, _⟩ => ⟨S1x2, .f32⟩
  | .hbm, ⟨18, _⟩ => ⟨S8388608x2, .f32⟩
  | .hbm, ⟨19, _⟩ => ⟨S8388608x2, .f32⟩
  | .hbm, ⟨20, _⟩ => ⟨S_, .f32⟩
  | .hbm, ⟨21, _⟩ => ⟨S8388608x2, .f32⟩
  | .hbm, ⟨22, _⟩ => ⟨S8388608x2, .f32⟩
  | .hbm, ⟨23, _⟩ => ⟨S2x1, .f32⟩
  | .hbm, ⟨24, _⟩ => ⟨S8388608x1, .f32⟩
  | .hbm, ⟨25, _⟩ => ⟨S1x1, .f32⟩
  | .hbm, ⟨26, _⟩ => ⟨S8388608x1, .f32⟩
  | .hbm, ⟨27, _⟩ => ⟨S8388608x1, .f32⟩
  | .hbm, ⟨28, _⟩ => ⟨S8388608, .f32⟩
  | .hbm, ⟨29, _⟩ => ⟨S8388608, .f32⟩
  | .hbm, ⟨30, _⟩ => ⟨S8388608, .f32⟩
  | .hbm, ⟨31, _⟩ => ⟨S_, .f32⟩
  | .hbm, ⟨32, _⟩ => ⟨S8388608, .f32⟩
  | .hbm, ⟨33, _⟩ => ⟨S8388608, .f32⟩
  | .hbm, ⟨34, _⟩ => ⟨S_, .f32⟩
  | .hbm, ⟨35, _⟩ => ⟨S8388608, .f32⟩
  | .hbm, ⟨36, _⟩ => ⟨S8388608, .f32⟩
  | _, _ => ⟨S8388608x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  transposes_S3x2_S2x3_1_0 : S3x2.Transposes [1, 0] S2x3
  bcast_S3_S1x3_1 : S3.BroadcastsInDim S1x3 (![1] : Fin 1 → Fin S1x3.rank)
  bcast_S1x3_S8388608x3_0_1 : S1x3.BroadcastsInDim S8388608x3 (![0, 1] : Fin 2 → Fin S8388608x3.rank)
  bcast_S_S8388608x3 : S_.BroadcastsInDim S8388608x3 (![] : Fin 0 → Fin S8388608x3.rank)
  transposes_S2x3_S3x2_1_0 : S2x3.Transposes [1, 0] S3x2
  bcast_S2_S1x2_1 : S2.BroadcastsInDim S1x2 (![1] : Fin 1 → Fin S1x2.rank)
  bcast_S1x2_S8388608x2_0_1 : S1x2.BroadcastsInDim S8388608x2 (![0, 1] : Fin 2 → Fin S8388608x2.rank)
  bcast_S_S8388608x2 : S_.BroadcastsInDim S8388608x2 (![] : Fin 0 → Fin S8388608x2.rank)
  transposes_S1x2_S2x1_1_0 : S1x2.Transposes [1, 0] S2x1
  bcast_S1_S1x1_1 : S1.BroadcastsInDim S1x1 (![1] : Fin 1 → Fin S1x1.rank)
  bcast_S1x1_S8388608x1_0_1 : S1x1.BroadcastsInDim S8388608x1 (![0, 1] : Fin 2 → Fin S8388608x1.rank)
  shapeCasts_S8388608x1_S8388608 : S8388608x1.ShapeCasts S8388608
  bcast_S_S8388608 : S_.BroadcastsInDim S8388608 (![] : Fin 0 → Fin S8388608.rank)
  dot_S8388608x2_S2x3_S8388608x3_1_0_0_1_n_n_wf : DotDims.WF S8388608x2 S2x3 S8388608x3 [1] [0] [0] [1] [] []
  dot_S8388608x3_S3x2_S8388608x2_1_0_0_1_n_n_wf : DotDims.WF S8388608x3 S3x2 S8388608x2 [1] [0] [0] [1] [] []
  dot_S8388608x2_S2x1_S8388608x1_1_0_0_1_n_n_wf : DotDims.WF S8388608x2 S2x1 S8388608x1 [1] [0] [0] [1] [] []

variable [Facts₀]

def dot_S8388608x2_S2x3_S8388608x3_1_0_0_1_n_n : DotDims S8388608x2 S2x3 S8388608x3 where
  lhsContracting := [1]
  rhsContracting := [0]
  lhsNonContracting := [0]
  rhsNonContracting := [1]
  lhsBatch := []
  rhsBatch := []
  wf := dot_S8388608x2_S2x3_S8388608x3_1_0_0_1_n_n_wf
def dot_S8388608x3_S3x2_S8388608x2_1_0_0_1_n_n : DotDims S8388608x3 S3x2 S8388608x2 where
  lhsContracting := [1]
  rhsContracting := [0]
  lhsNonContracting := [0]
  rhsNonContracting := [1]
  lhsBatch := []
  rhsBatch := []
  wf := dot_S8388608x3_S3x2_S8388608x2_1_0_0_1_n_n_wf
def dot_S8388608x2_S2x1_S8388608x1_1_0_0_1_n_n : DotDims S8388608x2 S2x1 S8388608x1 where
  lhsContracting := [1]
  rhsContracting := [0]
  lhsNonContracting := [0]
  rhsNonContracting := [1]
  lhsBatch := []
  rhsBatch := []
  wf := dot_S8388608x2_S2x1_S8388608x1_1_0_0_1_n_n_wf

class Facts : Prop extends Facts₀ where

variable [Facts]
-- ==== Proof.LibColumn.lean ====
/-
  A vector kept as a COLUMN: what `jnp.sum(..., axis=-1, keepdims=True)` leaves in a kernel body is a length-`a`
  vector cast to the one-column matrix `[a, 1]` and then broadcast across `b` columns to `[a, b]`. Read at an entry
  `(p, c)`, the cast forgets the unit coordinate and the broadcast forgets the column: both give the vector at `p`.
  Stated for any extents and any element type; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- A length-`a` vector cast to the column `[a, 1]` reads, at `(p, u)`, the vector at `p`: row-major position
    `p · 1 + u` with `u = 0` is position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast across `b` columns reads, at `(p, c)`, the column's entry in row `p`: the row
    coordinate is kept (or is `0` already when `a = 1`), the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid down the rows of an `[a, b]` matrix, through its column cast, reads the
    vector at the row. -/
theorem broadcastTo_column_apply {a b : ℕ} (x : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x h1) hb (ix2 p c) = x (ix1 p) :=
  (broadcastTo_a1_ab_apply _ hb p c).trans (shapeCast_a_a1_apply x h1 p 0)

end Cert.LibColumn
-- ==== Proof.LibDenseLayout.lean ====
/-
  A dense layer evaluated column by column on the vector unit. For an `[a, n]` input block `X`, an `[b, n]` weight
  matrix `W` and a length-`b` bias `β`, the body builds three kinds of `[a, b]` operands out of layout operations only:

  * the bias laid along every row:            `[b] → [1, b] → [1, b] → [a, b]`,
  * column `o` of the input across the row:    `[a, n] ⊇ [a, 1] → [a, b]`,
  * column `o` of the weights along every row: `[b, n] ⊇ [b, 1] → [b] → [1, b] → [a, b]`.

  Read at an entry `(p, q)` they are `β q`, `X (p, o)` and `W (q, o)`: the three facts below, for any extents and any
  element type. The one cast the library does not read at an index, a one-column matrix `[b, 1]` flattened to the
  vector `[b]`, comes first. Nothing here mentions a program.
-/
import Idealize.ShloMosaic.Lib.Pipeline.Value
import Idealize.ShloMosaic.Lib.ValueIdx
import Idealize.ShloMosaic.Lib.ValueLayout
import proofs.«151378_j55259049230985_1_alg».proof.Proof.LibColumn

namespace Cert.LibDenseLayout

open Idealize.ShloMosaic Idealize.ShloMosaic.ValueIdx

variable {α : Type}

/-- A one-column matrix `[b, 1]` flattened to the vector `[b]` reads, at `q`, the column's entry in row `q`:
    row-major position `q · 1 + 0` is position `q`. -/
theorem shapeCast_b1_b_apply {b : ℕ} (v : (⟨2, ![b, 1]⟩ : Shape).Idx → α)
    (h : (⟨2, ![b, 1]⟩ : Shape).ShapeCasts ⟨1, ![b]⟩) (q : Fin b) :
    shapeCast ⟨1, ![b]⟩ v h (ix1 q) = v (ix2 q (0 : Fin 1)) :=
  shapeCast_apply v h _ _ (by
    rw [Shape.rowMajor_val_two, Shape.rowMajor_val_one]
    show q.val * 1 + 0 = q.val
    rw [Nat.mul_one, Nat.add_zero])

/-- The bias laid along every row: a length-`b` vector given a leading unit axis (twice: the second cast is the
    identity) and broadcast over `a` rows reads, at `(p, q)`, the vector at `q`. -/
theorem bias_rows_apply {a b : ℕ} (β : (⟨1, ![b]⟩ : Shape).Idx → α)
    (h1 : (⟨1, ![b]⟩ : Shape).ShapeCasts ⟨2, ![1, b]⟩) (h2 : (⟨2, ![1, b]⟩ : Shape).ShapeCasts ⟨2, ![1, b]⟩)
    (hb : (⟨2, ![1, b]⟩ : Shape).Broadcasts ⟨2, ![a, b]⟩) (p : Fin a) (q : Fin b) :
    broadcastTo ⟨2, ![a, b]⟩ (shapeCast ⟨2, ![1, b]⟩ (shapeCast ⟨2, ![1, b]⟩ β h1) h2) hb (ix2 p q) = β (ix1 q) := by
  rw [broadcastTo_1b_ab_apply, shapeCast_self, shapeCast_a_1a_apply]

/-- Column `o` of the input across the row: the `[a, 1]` slice of an `[a, n]` block at column offset `o`, broadcast
    over `b` columns, reads at `(p, q)` the block at `(p, o)`. -/
theorem input_column_apply {a b n : ℕ} (o : ℕ) (X : (⟨2, ![a, n]⟩ : Shape).Idx → α)
    (hs : (⟨2, ![a, n]⟩ : Shape).Slices ![0, o] ⟨2, ![a, 1]⟩)
    (hb : (⟨2, ![a, 1]⟩ : Shape).Broadcasts ⟨2, ![a, b]⟩) (p : Fin a) (q : Fin b) (k : Fin n) (hk : k.val = o) :
    broadcastTo ⟨2, ![a, b]⟩ (extractStridedSlice ⟨2, ![a, 1]⟩ ![0, o] X hs) hb (ix2 p q) = X (ix2 p k) := by
  rw [Cert.LibColumn.broadcastTo_a1_ab_apply]
  exact slice2_axis1_apply o X hs p (0 : Fin 1) k (by rw [hk]; rfl)

/-- Column `o` of the weights along every row: the `[b, 1]` slice of a `[b, n]` matrix at column offset `o`,
    flattened to `[b]`, given a leading unit axis and broadcast over `a` rows, reads at `(p, q)` the matrix at `(q, o)`. -/
theorem weight_column_apply {a b n : ℕ} (o : ℕ) (W : (⟨2, ![b, n]⟩ : Shape).Idx → α)
    (hs : (⟨2, ![b, n]⟩ : Shape).Slices ![0, o] ⟨2, ![b, 1]⟩)
    (h1 : (⟨2, ![b, 1]⟩ : Shape).ShapeCasts ⟨1, ![b]⟩) (h2 : (⟨1, ![b]⟩ : Shape).ShapeCasts ⟨2, ![1, b]⟩)
    (hb : (⟨2, ![1, b]⟩ : Shape).Broadcasts ⟨2, ![a, b]⟩) (p : Fin a) (q : Fin b) (k : Fin n) (hk : k.val = o) :
    broadcastTo ⟨2, ![a, b]⟩ (shapeCast ⟨2, ![1, b]⟩ (shapeCast ⟨1, ![b]⟩ (extractStridedSlice ⟨2, ![b, 1]⟩ ![0, o] W hs) h1) h2) hb
      (ix2 p q) = W (ix2 q k) := by
  rw [broadcastTo_1b_ab_apply, shapeCast_a_1a_apply, shapeCast_b1_b_apply]
  exact slice2_axis1_apply o W hs q (0 : Fin 1) k (by rw [hk]; rfl)

end Cert.LibDenseLayout
-- ==== Proof.Spec.lean ====
/-
  The three-layer perceptron 2 → 3 → 2 → 1, row by row, as the two programs compute it at any float instance `F`.

  For a batch of `a` rows `x : [a, 2]`, weights `W₁ : [3, 2]`, `W₂ : [2, 3]`, `W₃ : [1, 2]` and biases `β₁ : [3]`, `β₂ : [2]`,
  `β₃ : [1]`:

    h₁ (r, j) = max (β₁ j + x (r,0)·W₁ (j,0) + x (r,1)·W₁ (j,1)) 0
    h₂ (r, j) = max (β₂ j + h₁ (r,0)·W₂ (j,0) + h₁ (r,1)·W₂ (j,1) + h₁ (r,2)·W₂ (j,2)) 0
    out (r, u) = logistic (β₃ u + h₂ (r,0)·W₃ (u,0) + h₂ (r,1)·W₃ (u,1))

  each sum taken from the bias, left to right (the order the kernel adds in). Every layer is ROW-LOCAL: entry `(r, ·)` of a
  layer reads only row `r` of the layer below, so a block of rows of a layer is the layer of the block of rows; that is all
  the tiling over the batch uses. The number of rows is a parameter, so that the same definition reads a block and the
  whole array.
-/
import Idealize.ShloMosaic.PureOps
import Idealize.ShloMosaic.Lib.ValueIdx

noncomputable section

namespace Cert.MlpSpec

open Idealize.ShloMosaic Idealize.ShloMosaic.ValueIdx

variable {F : FTy → Type} [FloatOps F]

/-- The zero the rectifier compares with. -/
abbrev zero32 : F .f32 := FloatOps.ofBits .f32 0x00000000#32

/-- One rectified unit with two inputs: `max (β + x₀·w₀ + x₁·w₁) 0`. -/
def relu2 (β x0 w0 x1 w1 : F .f32) : F .f32 :=
  FloatOps.maximumf (FloatOps.addf (FloatOps.addf β (FloatOps.mulf x0 w0)) (FloatOps.mulf x1 w1)) zero32

/-- One rectified unit with three inputs: `max (β + x₀·w₀ + x₁·w₁ + x₂·w₂) 0`. -/
def relu3 (β x0 w0 x1 w1 x2 w2 : F .f32) : F .f32 :=
  FloatOps.maximumf
    (FloatOps.addf (FloatOps.addf (FloatOps.addf β (FloatOps.mulf x0 w0)) (FloatOps.mulf x1 w1)) (FloatOps.mulf x2 w2)) zero32

/-- The output unit: `logistic (β + x₀·w₀ + x₁·w₁)`. -/
def sigm2 (β x0 w0 x1 w1 : F .f32) : F .f32 :=
  FloatOps.logistic (FloatOps.addf (FloatOps.addf β (FloatOps.mulf x0 w0)) (FloatOps.mulf x1 w1))

/-- The first hidden layer of `a` rows. -/
def hidden1 {a : ℕ} (x : (⟨2, ![a, 2]⟩ : Shape).Idx → F .f32) (W : (⟨2, ![3, 2]⟩ : Shape).Idx → F .f32)
    (β : (⟨1, ![3]⟩ : Shape).Idx → F .f32) : (⟨2, ![a, 3]⟩ : Shape).Idx → F .f32 := fun i =>
  relu2 (β (ix1 (i 1))) (x (ix2 (i 0) 0)) (W (ix2 (i 1) 0)) (x (ix2 (i 0) 1)) (W (ix2 (i 1) 1))

/-- The second hidden layer of `a` rows, over the first. -/
def hidden2 {a : ℕ} (h : (⟨2, ![a, 3]⟩ : Shape).Idx → F .f32) (W : (⟨2, ![2, 3]⟩ : Shape).Idx → F .f32)
    (β : (⟨1, ![2]⟩ : Shape).Idx → F .f32) : (⟨2, ![a, 2]⟩ : Shape).Idx → F .f32 := fun i =>
  relu3 (β (ix1 (i 1))) (h (ix2 (i 0) 0)) (W (ix2 (i 1) 0)) (h (ix2 (i 0) 1)) (W (ix2 (i 1) 1)) (h (ix2 (i 0) 2)) (W (ix2 (i 1) 2))

/-- The output column of `a` rows, over the second hidden layer. -/
def outcol {a : ℕ} (h : (⟨2, ![a, 2]⟩ : Shape).Idx → F .f32) (W : (⟨2, ![1, 2]⟩ : Shape).Idx → F .f32)
    (β : (⟨1, ![1]⟩ : Shape).Idx → F .f32) : (⟨2, ![a, 1]⟩ : Shape).Idx → F .f32 := fun i =>
  sigm2 (β (ix1 (i 1))) (h (ix2 (i 0) 0)) (W (ix2 (i 1) 0)) (h (ix2 (i 0) 1)) (W (ix2 (i 1) 1))

theorem hidden1_apply {a : ℕ} (x : (⟨2, ![a, 2]⟩ : Shape).Idx → F .f32) (W : (⟨2, ![3, 2]⟩ : Shape).Idx → F .f32)
    (β : (⟨1, ![3]⟩ : Shape).Idx → F .f32) (p : Fin a) (q : Fin 3) :
    hidden1 x W β (ix2 p q) = relu2 (β (ix1 q)) (x (ix2 p 0)) (W (ix2 q 0)) (x (ix2 p 1)) (W (ix2 q 1)) := rfl

theorem hidden2_apply {a : ℕ} (h : (⟨2, ![a, 3]⟩ : Shape).Idx → F .f32) (W : (⟨2, ![2, 3]⟩ : Shape).Idx → F .f32)
    (β : (⟨1, ![2]⟩ : Shape).Idx → F .f32) (p : Fin a) (q : Fin 2) :
    hidden2 h W β (ix2 p q)
      = relu3 (β (ix1 q)) (h (ix2 p 0)) (W (ix2 q 0)) (h (ix2 p 1)) (W (ix2 q 1)) (h (ix2 p 2)) (W (ix2 q 2)) := rfl

theorem outcol_apply {a : ℕ} (h : (⟨2, ![a, 2]⟩ : Shape).Idx → F .f32) (W : (⟨2, ![1, 2]⟩ : Shape).Idx → F .f32)
    (β : (⟨1, ![1]⟩ : Shape).Idx → F .f32) (p : Fin a) (u : Fin 1) :
    outcol h W β (ix2 p u) = sigm2 (β (ix1 u)) (h (ix2 p 0)) (W (ix2 u 0)) (h (ix2 p 1)) (W (ix2 u 1)) := rfl

/-! ## Row-locality: a layer's row reads only that row of the layer below -/

/-- Row `p` of the first layer over `x` is row `r` of the first layer over `X` when row `p` of `x` is row `r` of `X`. -/
theorem hidden1_row {a a' : ℕ} (x : (⟨2, ![a, 2]⟩ : Shape).Idx → F .f32) (X : (⟨2, ![a', 2]⟩ : Shape).Idx → F .f32)
    (W : (⟨2, ![3, 2]⟩ : Shape).Idx → F .f32) (β : (⟨1, ![3]⟩ : Shape).Idx → F .f32) (p : Fin a) (r : Fin a')
    (hx : ∀ k : Fin 2, x (ix2 p k) = X (ix2 r k)) (q : Fin 3) :
    hidden1 x W β (ix2 p q) = hidden1 X W β (ix2 r q) := by
  rw [hidden1_apply, hidden1_apply, hx 0, hx 1]

/-- The same for the second layer. -/
theorem hidden2_row {a a' : ℕ} (h : (⟨2, ![a, 3]⟩ : Shape).Idx → F .f32) (H : (⟨2, ![a', 3]⟩ : Shape).Idx → F .f32)
    (W : (⟨2, ![2, 3]⟩ : Shape).Idx → F .f32) (β : (⟨1, ![2]⟩ : Shape).Idx → F .f32) (p : Fin a) (r : Fin a')
    (hh : ∀ k : Fin 3, h (ix2 p k) = H (ix2 r k)) (q : Fin 2) :
    hidden2 h W β (ix2 p q) = hidden2 H W β (ix2 r q) := by
  rw [hidden2_apply, hidden2_apply, hh 0, hh 1, hh 2]

/-- The same for the output column. -/
theorem outcol_row {a a' : ℕ} (h : (⟨2, ![a, 2]⟩ : Shape).Idx → F .f32) (H : (⟨2, ![a', 2]⟩ : Shape).Idx → F .f32)
    (W : (⟨2, ![1, 2]⟩ : Shape).Idx → F .f32) (β : (⟨1, ![1]⟩ : Shape).Idx → F .f32) (p : Fin a) (r : Fin a')
    (hh : ∀ k : Fin 2, h (ix2 p k) = H (ix2 r k)) (u : Fin 1) :
    outcol h W β (ix2 p u) = outcol H W β (ix2 r u) := by
  rw [outcol_apply, outcol_apply, hh 0, hh 1]

end Cert.MlpSpec

end
-- ==== Proof.KernelBlock.lean ====
/-
  What the kernel body computes on one block of 8192 rows, at any float instance: its four named pure values are the
  layers of the perceptron over the block.

  The body adds the bias first and then one product per input column, each product of a column of the block (broadcast
  across the row) with a column of the weights (laid along every row); read at an entry `(p, q)` that is
  `β q + x (p,0)·W (q,0) + x (p,1)·W (q,1) + …`, the unit of the specification. So

    first hidden layer  (the value stored to the first output)            = hidden1 x W₁ β₁
    the second layer's partial sum over the first two hidden columns      = β₂ + h₁(·,0)·W₂(·,0) + h₁(·,1)·W₂(·,1)
    second hidden layer (that sum plus the third column, rectified)       = hidden2 h₁ W₂ β₂
    output column                                                         = outcol h₂ W₃ β₃
-/
import proofs.«151378_j55259049230985_1_alg».proof.Proof.Gen.KernelIdeal.Skeleton
import proofs.«151378_j55259049230985_1_alg».proof.Proof.LibDenseLayout
import proofs.«151378_j55259049230985_1_alg».proof.Proof.Spec

noncomputable section

namespace Cert.KernelIdeal.Block

open Cert.KernelIdeal Cert.KernelIdeal.Gen Idealize.ShloMosaic Idealize.ShloMosaic.ValueIdx Cert.MlpSpec Cert.LibDenseLayout

variable {F : FTy → Type} [FloatOps F]

/-- The first stored value is the first hidden layer of the block. -/
theorem first_layer_apply (x0 : Vec F S8192x2 .f32) (x1 : Vec F S3x2 .f32) (x2 : Vec F S3 .f32) (p : Fin 8192) (q : Fin 3) :
    k0_pay3 x0 x1 x2 (ix2 p q) = hidden1 x0 x1 x2 (ix2 p q) := by
  unfold k0_pay3
  simp only [maximumf, addf, mulf, broadcast]
  rw [bias_rows_apply x2 _ _ _ p q,
    input_column_apply 0 x0 _ _ p q (0 : Fin 2) rfl, weight_column_apply 0 x1 _ _ _ _ p q (0 : Fin 2) rfl,
    input_column_apply 1 x0 _ _ p q (1 : Fin 2) rfl, weight_column_apply 1 x1 _ _ _ _ p q (1 : Fin 2) rfl]
  rfl

/-- The second layer's sum over the first two columns of the hidden block `h`. -/
theorem second_layer_partial_apply (x0 : Vec F S8192x2 .f32) (x1 : Vec F S3x2 .f32) (x2 : Vec F S3 .f32) (x3 : Vec F S2x3 .f32)
    (x4 : Vec F S2 .f32) (p : Fin 8192) (q : Fin 2) :
    k0_pay4 x0 x1 x2 x3 x4 (ix2 p q)
      = FloatOps.addf (FloatOps.addf (x4 (ix1 q)) (FloatOps.mulf (k0_pay3 x0 x1 x2 (ix2 p 0)) (x3 (ix2 q 0))))
          (FloatOps.mulf (k0_pay3 x0 x1 x2 (ix2 p 1)) (x3 (ix2 q 1))) := by
  unfold k0_pay4
  simp only [addf, mulf]
  rw [bias_rows_apply x4 _ _ _ p q,
    input_column_apply 0 (k0_pay3 x0 x1 x2) _ _ p q (0 : Fin 3) rfl, weight_column_apply 0 x3 _ _ _ _ p q (0 : Fin 3) rfl,
    input_column_apply 1 (k0_pay3 x0 x1 x2) _ _ p q (1 : Fin 3) rfl, weight_column_apply 1 x3 _ _ _ _ p q (1 : Fin 3) rfl]

/-- The second stored value: the partial sum `s` plus the third hidden column's product, rectified. -/
theorem second_layer_close_apply (x3 : Vec F S2x3 .f32) (h : FVec F S8192x3 .f32) (s : FVec F S8192x2 .f32) (p : Fin 8192) (q : Fin 2) :
    k0_pay1 x3 h s (ix2 p q)
      = FloatOps.maximumf (FloatOps.addf (s (ix2 p q)) (FloatOps.mulf (h (ix2 p 2)) (x3 (ix2 q 2)))) zero32 := by
  unfold k0_pay1
  simp only [maximumf, addf, mulf, broadcast]
  rw [input_column_apply 2 h _ _ p q (2 : Fin 3) rfl, weight_column_apply 2 x3 _ _ _ _ p q (2 : Fin 3) rfl]

/-- So the second stored value is the second hidden layer over the first. -/
theorem second_layer_apply (x0 : Vec F S8192x2 .f32) (x1 : Vec F S3x2 .f32) (x2 : Vec F S3 .f32) (x3 : Vec F S2x3 .f32)
    (x4 : Vec F S2 .f32) (p : Fin 8192) (q : Fin 2) :
    k0_pay1 x3 (k0_pay3 x0 x1 x2) (k0_pay4 x0 x1 x2 x3 x4) (ix2 p q) = hidden2 (k0_pay3 x0 x1 x2) x3 x4 (ix2 p q) := by
  rw [second_layer_close_apply, second_layer_partial_apply]
  rfl

/-- The third stored value is the output column over a second hidden block `g` (the body's own, `k0_pay1 …`). -/
theorem output_apply (x3 : Vec F S2x3 .f32) (x5 : Vec F S1x2 .f32) (x6 : Vec F S1 .f32) (h : FVec F S8192x3 .f32)
    (s : FVec F S8192x2 .f32) (p : Fin 8192) (u : Fin 1) :
    k0_pay2 x3 x5 x6 h s (ix2 p u) = outcol (k0_pay1 x3 h s) x5 x6 (ix2 p u) := by
  unfold k0_pay2
  simp only [logistic, addf, mulf]
  have hu : u.val = 0 := by have := u.isLt; omega
  rw [bias_rows_apply x6 _ _ _ p u,
    slice2_axis1_apply 0 (k0_pay1 x3 h s) _ p u (0 : Fin 2) (by show (0 : ℕ) = 0 + u.val; omega),
    weight_column_apply 0 x5 _ _ _ _ p u (0 : Fin 2) rfl,
    slice2_axis1_apply 1 (k0_pay1 x3 h s) _ p u (1 : Fin 2) (by show (1 : ℕ) = 1 + u.val; omega),
    weight_column_apply 1 x5 _ _ _ _ p u (1 : Fin 2) rfl]
  rfl

/-! ## The block's rows against the rows of a taller array

A block of 8192 rows `x0` whose row `p` is row `r` of an array `X` of any number of rows: every layer the body computes
on the block has, in row `p`, what the same layer over `X` has in row `r` (the layers are row-local). -/

variable {a' : ℕ} (X : (⟨2, ![a', 2]⟩ : Shape).Idx → F .f32)
  (x0 : Vec F S8192x2 .f32) (x1 : Vec F S3x2 .f32) (x2 : Vec F S3 .f32) (x3 : Vec F S2x3 .f32) (x4 : Vec F S2 .f32)
  (x5 : Vec F S1x2 .f32) (x6 : Vec F S1 .f32) (p : Fin 8192) (r : Fin a')

theorem first_layer_rows (hx : ∀ k : Fin 2, x0 (ix2 p k) = X (ix2 r k)) (q : Fin 3) :
    k0_pay3 x0 x1 x2 (ix2 p q) = hidden1 X x1 x2 (ix2 r q) :=
  (first_layer_apply x0 x1 x2 p q).trans (hidden1_row x0 X x1 x2 p r hx q)

theorem second_layer_rows (hx : ∀ k : Fin 2, x0 (ix2 p k) = X (ix2 r k)) (q : Fin 2) :
    k0_pay1 x3 (k0_pay3 x0 x1 x2) (k0_pay4 x0 x1 x2 x3 x4) (ix2 p q) = hidden2 (hidden1 X x1 x2) x3 x4 (ix2 r q) :=
  (second_layer_apply x0 x1 x2 x3 x4 p q).trans
    (hidden2_row (k0_pay3 x0 x1 x2) (hidden1 X x1 x2) x3 x4 p r (fun k => first_layer_rows X x0 x1 x2 p r hx k) q)

theorem output_rows (hx : ∀ k : Fin 2, x0 (ix2 p k) = X (ix2 r k)) (u : Fin 1) :
    k0_pay2 x3 x5 x6 (k0_pay3 x0 x1 x2) (k0_pay4 x0 x1 x2 x3 x4) (ix2 p u)
      = outcol (hidden2 (hidden1 X x1 x2) x3 x4) x5 x6 (ix2 r u) :=
  (output_apply x3 x5 x6 (k0_pay3 x0 x1 x2) (k0_pay4 x0 x1 x2 x3 x4) p u).trans
    (outcol_row (k0_pay1 x3 (k0_pay3 x0 x1 x2) (k0_pay4 x0 x1 x2 x3 x4)) (hidden2 (hidden1 X x1 x2) x3 x4) x5 x6 p r
      (fun k => second_layer_rows X x0 x1 x2 x3 x4 p r hx k) u)

end Cert.KernelIdeal.Block

end
-- ==== Proof.KernelArrays.lean ====
/-
  The three arrays the kernel's run leaves, as whole-array functions of the seven arguments.

  The grid has 1024 points; point `t` stages rows `8192·t … 8192·t + 8191` of the batch and the whole of every weight and
  bias array, and writes back the same rows of the three results. A layer's row reads only that row of the layer below, so
  what point `t` writes back is rows `8192·t …` of the layer over the WHOLE batch; the 1024 blocks tile each result, so
  each result array ends holding that layer, index by index. The program's one host line after the region flattens the
  one-column output `[8388608, 1]` to the vector `[8388608]`.
-/
import proofs.«151378_j55259049230985_1_alg».proof.Proof.Gen.KernelIdeal.Frame
import proofs.«151378_j55259049230985_1_alg».proof.Proof.KernelBlock
import Idealize.ShloMosaic.Lib.Pipeline.Value
import Idealize.ShloMosaic.Lib.StableHlo.Run

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.ValueIdx Cert.MlpSpec Cert.KernelIdeal.Block
open Idealize.ShloMosaic.Pipeline (Dat)

variable {F : FTy → Type} [FloatOps F]
variable (m : (ℓ : Loc nD τ sig) → Buf (Elt F) ℓ) (ρ : Dev nD → PrngReg)

/-! ## The arguments as the region finds them, and the three layers over them -/

abbrev batch (c : Dev nD) : S8388608x2.Idx → F .f32 := V m c main_arg0
abbrev weights1 (c : Dev nD) : S3x2.Idx → F .f32 := V m c main_arg1
abbrev bias1 (c : Dev nD) : S3.Idx → F .f32 := V m c main_arg2
abbrev weights2 (c : Dev nD) : S2x3.Idx → F .f32 := V m c main_arg3
abbrev bias2 (c : Dev nD) : S2.Idx → F .f32 := V m c main_arg4
abbrev weights3 (c : Dev nD) : S1x2.Idx → F .f32 := V m c main_arg5
abbrev bias3 (c : Dev nD) : S1.Idx → F .f32 := V m c main_arg6

/-- The first hidden layer over the whole batch. -/
abbrev layer1 (c : Dev nD) : S8388608x3.Idx → F .f32 := hidden1 (batch m c) (weights1 m c) (bias1 m c)
/-- The second hidden layer over the whole batch. -/
abbrev layer2 (c : Dev nD) : S8388608x2.Idx → F .f32 := hidden2 (layer1 m c) (weights2 m c) (bias2 m c)
/-- The output column over the whole batch. -/
abbrev layer3 (c : Dev nD) : S8388608x1.Idx → F .f32 := outcol (layer2 m c) (weights3 m c) (bias3 m c)

/-! ## Where each window's block lies -/

theorem origin2 : (![0, 0] : Fin 2 → Nat) = fun _ => 0 := funext fun a => by fin_cases a <;> rfl
theorem origin1 : (![0] : Fin 1 → Nat) = fun _ => 0 := funext fun a => by fin_cases a <;> rfl

/-- The printed index maps, decided over the grid: the batch window and the three result windows are at block `(t, 0)`,
    every weight and bias window at block zero. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Row `p` of the batch block at point `t` is row `8192·t + p` of the batch. -/
theorem batch_block (c : Dev nD) (t : Fin cfg0.N) (p : Fin 8192) (r : Fin 8388608) (hr : r.val = t.val * 8192 + p.val) (k : Fin 2) :
    (iblk m c 0 t : Vec F S8192x2 .f32) (ix2 p k) = batch m c (ix2 r k) := by
  obtain ⟨e0, e1, -⟩ := block_index t
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 8192 + 1 * p.val = r.val; omega
  | ⟨1, _⟩ => show win0_0.index t (1 : Fin 2) * 2 + 1 * k.val = k.val; omega

/-- Every point stages the whole of each weight and bias array. -/
theorem weights1_block (c : Dev nD) (t : Fin cfg0.N) : (iblk m c 1 t : Vec F S3x2 .f32) = weights1 m c := by
  obtain ⟨-, -, e0, e1, -⟩ := block_index t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 3 + 1 * (y 0).val = (y 0).val; omega
  | ⟨1, _⟩ => show win0_1.index t (1 : Fin 2) * 2 + 1 * (y 1).val = (y 1).val; omega
theorem bias1_block (c : Dev nD) (t : Fin cfg0.N) : (iblk m c 2 t : Vec F S3 .f32) = bias1 m c := by
  obtain ⟨-, -, -, -, e0, -⟩ := block_index t
  funext y
  show V m c main_arg2 (((cfg0.win 2).blk t).view.emb y) = V m c main_arg2 y
  refine congrArg (V m c main_arg2) (funext fun a => Fin.ext ?_)
  match a with
  | ⟨0, _⟩ => show win0_2.index t (0 : Fin 1) * 3 + 1 * (y 0).val = (y 0).val; omega
theorem weights2_block (c : Dev nD) (t : Fin cfg0.N) : (iblk m c 3 t : Vec F S2x3 .f32) = weights2 m c := by
  obtain ⟨-, -, -, -, -, e0, e1, -⟩ := block_index t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 2 + 1 * (y 0).val = (y 0).val; omega
  | ⟨1, _⟩ => show win0_3.index t (1 : Fin 2) * 3 + 1 * (y 1).val = (y 1).val; omega
theorem bias2_block (c : Dev nD) (t : Fin cfg0.N) : (iblk m c 4 t : Vec F S2 .f32) = bias2 m c := by
  obtain ⟨-, -, -, -, -, -, -, e0, -⟩ := block_index t
  funext y
  show V m c main_arg4 (((cfg0.win 4).blk t).view.emb y) = V m c main_arg4 y
  refine congrArg (V m c main_arg4) (funext fun a => Fin.ext ?_)
  match a with
  | ⟨0, _⟩ => show win0_4.index t (0 : Fin 1) * 2 + 1 * (y 0).val = (y 0).val; omega
theorem weights3_block (c : Dev nD) (t : Fin cfg0.N) : (iblk m c 5 t : Vec F S1x2 .f32) = weights3 m c := by
  obtain ⟨-, -, -, -, -, -, -, -, e0, e1, -⟩ := block_index t
  funext y
  show V m c main_arg5 (((cfg0.win 5).blk t).view.emb y) = V m c main_arg5 y
  refine congrArg (V m c main_arg5) (funext fun a => Fin.ext ?_)
  match a with
  | ⟨0, _⟩ => show win0_5.index t (0 : Fin 2) * 1 + 1 * (y 0).val = (y 0).val; omega
  | ⟨1, _⟩ => show win0_5.index t (1 : Fin 2) * 2 + 1 * (y 1).val = (y 1).val; omega
theorem bias3_block (c : Dev nD) (t : Fin cfg0.N) : (iblk m c 6 t : Vec F S1 .f32) = bias3 m c := by
  obtain ⟨-, -, -, -, -, -, -, -, -, -, e0, -⟩ := block_index t
  funext y
  show V m c main_arg6 (((cfg0.win 6).blk t).view.emb y) = V m c main_arg6 y
  refine congrArg (V m c main_arg6) (funext fun a => Fin.ext ?_)
  match a with
  | ⟨0, _⟩ => show win0_6.index t (0 : Fin 1) * 1 + 1 * (y 0).val = (y 0).val; omega

/-! ## What each point writes back

Entry `j` of a result's block at point `t` lies at the array index `i` with `i 0 = 8192·t + j 0` and the same column. -/

theorem layer1_block_entry (c : Dev nD) (t : Fin cfg0.N) (j : S8192x3.Idx) (i : S8388608x3.Idx)
    (h0 : (i 0).val = t.val * 8192 + (j 0).val) (h1 : i 1 = j 1) :
    k0_pay3 (iblk m c 0 t) (iblk m c 1 t) (iblk m c 2 t) j = layer1 m c i := by
  rw [weights1_block, bias1_block]
  have hi : ix2 (i 0) (j 1) = i := by rw [← h1]; exact (eq_ix2 i).symm
  exact (congrArg (k0_pay3 (iblk m c 0 t) (weights1 m c) (bias1 m c)) (eq_ix2 j)).trans
    ((first_layer_rows (batch m c) (iblk m c 0 t) (weights1 m c) (bias1 m c) (j 0) (i 0)
        (fun k => batch_block m c t (j 0) (i 0) h0 k) (j 1)).trans
      (congrArg (layer1 m c) hi))

theorem layer2_block_entry (c : Dev nD) (t : Fin cfg0.N) (j : S8192x2.Idx) (i : S8388608x2.Idx)
    (h0 : (i 0).val = t.val * 8192 + (j 0).val) (h1 : i 1 = j 1) :
    k0_pay1 (iblk m c 3 t) (k0_pay3 (iblk m c 0 t) (iblk m c 1 t) (iblk m c 2 t))
        (k0_pay4 (iblk m c 0 t) (iblk m c 1 t) (iblk m c 2 t) (iblk m c 3 t) (iblk m c 4 t)) j = layer2 m c i := by
  rw [weights1_block, bias1_block, weights2_block, bias2_block]
  have hi : ix2 (i 0) (j 1) = i := by rw [← h1]; exact (eq_ix2 i).symm
  exact (congrArg (k0_pay1 (weights2 m c) (k0_pay3 (iblk m c 0 t) (weights1 m c) (bias1 m c))
        (k0_pay4 (iblk m c 0 t) (weights1 m c) (bias1 m c) (weights2 m c) (bias2 m c))) (eq_ix2 j)).trans
    ((second_layer_rows (batch m c) (iblk m c 0 t) (weights1 m c) (bias1 m c) (weights2 m c) (bias2 m c) (j 0) (i 0)
        (fun k => batch_block m c t (j 0) (i 0) h0 k) (j 1)).trans
      (congrArg (layer2 m c) hi))

theorem layer3_block_entry (c : Dev nD) (t : Fin cfg0.N) (j : S8192x1.Idx) (i : S8388608x1.Idx)
    (h0 : (i 0).val = t.val * 8192 + (j 0).val) (h1 : i 1 = j 1) :
    k0_pay2 (iblk m c 3 t) (iblk m c 5 t) (iblk m c 6 t) (k0_pay3 (iblk m c 0 t) (iblk m c 1 t) (iblk m c 2 t))
        (k0_pay4 (iblk m c 0 t) (iblk m c 1 t) (iblk m c 2 t) (iblk m c 3 t) (iblk m c 4 t)) j = layer3 m c i := by
  rw [weights1_block, bias1_block, weights2_block, bias2_block, weights3_block, bias3_block]
  have hi : ix2 (i 0) (j 1) = i := by rw [← h1]; exact (eq_ix2 i).symm
  exact (congrArg (k0_pay2 (weights2 m c) (weights3 m c) (bias3 m c) (k0_pay3 (iblk m c 0 t) (weights1 m c) (bias1 m c))
        (k0_pay4 (iblk m c 0 t) (weights1 m c) (bias1 m c) (weights2 m c) (bias2 m c))) (eq_ix2 j)).trans
    ((output_rows (batch m c) (iblk m c 0 t) (weights1 m c) (bias1 m c) (weights2 m c) (bias2 m c) (weights3 m c) (bias3 m c)
        (j 0) (i 0) (fun k => batch_block m c t (j 0) (i 0) h0 k) (j 1)).trans
      (congrArg (layer3 m c) hi))

/-- Point `t` writes back rows `8192·t …` of the first hidden layer over the whole batch. -/
theorem flushed7_eq (c : Dev nD) (t : Fin cfg0.N) :
    (dats m 0 c).flushed 7 t = ((cfg0.win 7).blk t).view.read (Elt F) (layer1 m c) := by
  show (cfg0.win 7).cut (grid0.coords t) ((dats m 0 c).after 7 t) = _
  rw [after0_7]
  unfold out0_7
  rw [View.canon_unit_zero origin2]
  simp only [View.ld_unit_zero (S := S8192x2) origin2, View.ld_unit_zero (S := S3x2) origin2, View.ld_unit_zero (S := S3) origin1]
  obtain ⟨-, -, -, -, -, -, -, -, -, -, -, e0, e1, -⟩ := block_index t
  funext j
  show k0_pay3 (iblk m c 0 t) (iblk m c 1 t) (iblk m c 2 t) j = layer1 m c (((cfg0.win 7).blk t).view.emb j)
  refine layer1_block_entry m c t j (((cfg0.win 7).blk t).view.emb j) ?_ (Fin.ext ?_)
  · show win0_7.index t (0 : Fin 2) * 8192 + 1 * (j 0).val = t.val * 8192 + (j 0).val; omega
  · show win0_7.index t (1 : Fin 2) * 3 + 1 * (j 1).val = (j 1).val; omega

/-- Point `t` writes back rows `8192·t …` of the second hidden layer over the whole batch. -/
theorem flushed8_eq (c : Dev nD) (t : Fin cfg0.N) :
    (dats m 0 c).flushed 8 t = ((cfg0.win 8).blk t).view.read (Elt F) (layer2 m c) := by
  show (cfg0.win 8).cut (grid0.coords t) ((dats m 0 c).after 8 t) = _
  rw [after0_8]
  unfold out0_8
  rw [View.canon_unit_zero origin2]
  simp only [View.ld_unit_zero (S := S8192x2) origin2, View.ld_unit_zero (S := S3x2) origin2, View.ld_unit_zero (S := S3) origin1,
    View.ld_unit_zero (S := S2x3) origin2, View.ld_unit_zero (S := S2) origin1]
  obtain ⟨-, -, -, -, -, -, -, -, -, -, -, -, -, e0, e1, -⟩ := block_index t
  funext j
  show k0_pay1 (iblk m c 3 t) (k0_pay3 (iblk m c 0 t) (iblk m c 1 t) (iblk m c 2 t))
      (k0_pay4 (iblk m c 0 t) (iblk m c 1 t) (iblk m c 2 t) (iblk m c 3 t) (iblk m c 4 t)) j
    = layer2 m c (((cfg0.win 8).blk t).view.emb j)
  refine layer2_block_entry m c t j (((cfg0.win 8).blk t).view.emb j) ?_ (Fin.ext ?_)
  · show win0_8.index t (0 : Fin 2) * 8192 + 1 * (j 0).val = t.val * 8192 + (j 0).val; omega
  · show win0_8.index t (1 : Fin 2) * 2 + 1 * (j 1).val = (j 1).val; omega

/-- Point `t` writes back rows `8192·t …` of the output column over the whole batch. -/
theorem flushed9_eq (c : Dev nD) (t : Fin cfg0.N) :
    (dats m 0 c).flushed 9 t = ((cfg0.win 9).blk t).view.read (Elt F) (layer3 m c) := by
  show (cfg0.win 9).cut (grid0.coords t) ((dats m 0 c).after 9 t) = _
  rw [after0_9]
  unfold out0_9
  rw [View.canon_unit_zero origin2]
  simp only [View.ld_unit_zero (S := S8192x2) origin2, View.ld_unit_zero (S := S3x2) origin2, View.ld_unit_zero (S := S3) origin1,
    View.ld_unit_zero (S := S2x3) origin2, View.ld_unit_zero (S := S2) origin1, View.ld_unit_zero (S := S1x2) origin2,
    View.ld_unit_zero (S := S1) origin1]
  obtain ⟨-, -, -, -, -, -, -, -, -, -, -, -, -, -, -, e0, e1⟩ := block_index t
  funext j
  show k0_pay2 (iblk m c 3 t) (iblk m c 5 t) (iblk m c 6 t) (k0_pay3 (iblk m c 0 t) (iblk m c 1 t) (iblk m c 2 t))
      (k0_pay4 (iblk m c 0 t) (iblk m c 1 t) (iblk m c 2 t) (iblk m c 3 t) (iblk m c 4 t)) j
    = layer3 m c (((cfg0.win 9).blk t).view.emb j)
  refine layer3_block_entry m c t j (((cfg0.win 9).blk t).view.emb j) ?_ (Fin.ext ?_)
  · show win0_9.index t (0 : Fin 2) * 8192 + 1 * (j 0).val = t.val * 8192 + (j 0).val; omega
  · show win0_9.index t (1 : Fin 2) * 1 + 1 * (j 1).val = (j 1).val; omega

end Cert.KernelIdeal.Arrays

end
-- ==== Proof.KernelRun.lean ====
/-
  The kernel's run, read: the 1024 row blocks tile each result array, so each ends holding its layer over the whole
  batch; the host line after the region flattens the output column; the seven arguments are left as they were.
-/
import proofs.«151378_j55259049230985_1_alg».proof.Proof.KernelArrays

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.ValueIdx Cert.MlpSpec Cert.KernelIdeal.Block
open Idealize.ShloMosaic.Pipeline (Dat)

variable {F : FTy → Type} [FloatOps F]
variable (m : (ℓ : Loc nD τ sig) → Buf (Elt F) ℓ) (ρ : Dev nD → PrngReg)

/-! ## The blocks tile the arrays -/

/-- An index of the first result is in point `t`'s block iff each coordinate is in the block's range on its axis. -/
theorem mem_block7 (t : Fin cfg0.N) (i : S8388608x3.Idx) :
    i ∈ ((cfg0.win 7).blk t).view.set ↔ ∀ a : Fin 2, win0_7.index t a * S8192x3.size a ≤ (i a).val ∧ (i a).val < win0_7.index t a * S8192x3.size a + S8192x3.size a := by
  show i ∈ ((View.whole main_v0_0).slice (win0_7.rect t)).set ↔ _
  rw [View.set_slice_whole, Rect.mem_set_unit]
  exact Iff.rfl
theorem mem_block8 (t : Fin cfg0.N) (i : S8388608x2.Idx) :
    i ∈ ((cfg0.win 8).blk t).view.set ↔ ∀ a : Fin 2, win0_8.index t a * S8192x2.size a ≤ (i a).val ∧ (i a).val < win0_8.index t a * S8192x2.size a + S8192x2.size a := by
  show i ∈ ((View.whole main_v0_1).slice (win0_8.rect t)).set ↔ _
  rw [View.set_slice_whole, Rect.mem_set_unit]
  exact Iff.rfl
theorem mem_block9 (t : Fin cfg0.N) (i : S8388608x1.Idx) :
    i ∈ ((cfg0.win 9).blk t).view.set ↔ ∀ a : Fin 2, win0_9.index t a * S8192x1.size a ≤ (i a).val ∧ (i a).val < win0_9.index t a * S8192x1.size a + S8192x1.size a := by
  show i ∈ ((View.whole main_v0_2).slice (win0_9.rect t)).set ↔ _
  rw [View.set_slice_whole, Rect.mem_set_unit]
  exact Iff.rfl

/-- The point whose block holds row `r`: `r / 8192`. -/
def pointOf (r : Fin 8388608) : Fin cfg0.N :=
  ⟨r.val / 8192, by have hN : grid0.N = 1024 := N_0; have := r.isLt; show r.val / 8192 < grid0.N; omega⟩

theorem pointOf_val (r : Fin 8388608) : (pointOf r).val = r.val / 8192 := rfl

/-- Row `r` of the first result lies in the block of point `r / 8192`, which is written back. -/
theorem cover7 (i : S8388608x3.Idx) : ∃ t : Fin cfg0.N, (cfg0.win 7).flush t = true ∧ i ∈ ((cfg0.win 7).blk t).view.set := by
  have hi0 : (i 0).val < 8388608 := (i 0).isLt
  have hi1 : (i 1).val < 3 := (i 1).isLt
  have ht := pointOf_val (i 0)
  obtain ⟨-, -, -, -, -, -, -, -, -, -, -, e0, e1, -⟩ := block_index (pointOf (i 0))
  refine ⟨pointOf (i 0), flush0_7 _, ?_⟩
  rw [mem_block7]
  intro a
  match a with
  | ⟨0, _⟩ => show win0_7.index (pointOf (i 0)) (0 : Fin 2) * 8192 ≤ (i 0).val ∧ (i 0).val < win0_7.index (pointOf (i 0)) (0 : Fin 2) * 8192 + 8192; omega
  | ⟨1, _⟩ => show win0_7.index (pointOf (i 0)) (1 : Fin 2) * 3 ≤ (i 1).val ∧ (i 1).val < win0_7.index (pointOf (i 0)) (1 : Fin 2) * 3 + 3; omega
theorem cover8 (i : S8388608x2.Idx) : ∃ t : Fin cfg0.N, (cfg0.win 8).flush t = true ∧ i ∈ ((cfg0.win 8).blk t).view.set := by
  have hi0 : (i 0).val < 8388608 := (i 0).isLt
  have hi1 : (i 1).val < 2 := (i 1).isLt
  have ht := pointOf_val (i 0)
  obtain ⟨-, -, -, -, -, -, -, -, -, -, -, -, -, e0, e1, -⟩ := block_index (pointOf (i 0))
  refine ⟨pointOf (i 0), flush0_8 _, ?_⟩
  rw [mem_block8]
  intro a
  match a with
  | ⟨0, _⟩ => show win0_8.index (pointOf (i 0)) (0 : Fin 2) * 8192 ≤ (i 0).val ∧ (i 0).val < win0_8.index (pointOf (i 0)) (0 : Fin 2) * 8192 + 8192; omega
  | ⟨1, _⟩ => show win0_8.index (pointOf (i 0)) (1 : Fin 2) * 2 ≤ (i 1).val ∧ (i 1).val < win0_8.index (pointOf (i 0)) (1 : Fin 2) * 2 + 2; omega
theorem cover9 (i : S8388608x1.Idx) : ∃ t : Fin cfg0.N, (cfg0.win 9).flush t = true ∧ i ∈ ((cfg0.win 9).blk t).view.set := by
  have hi0 : (i 0).val < 8388608 := (i 0).isLt
  have hi1 : (i 1).val < 1 := (i 1).isLt
  have ht := pointOf_val (i 0)
  obtain ⟨-, -, -, -, -, -, -, -, -, -, -, -, -, -, -, e0, e1⟩ := block_index (pointOf (i 0))
  refine ⟨pointOf (i 0), flush0_9 _, ?_⟩
  rw [mem_block9]
  intro a
  match a with
  | ⟨0, _⟩ => show win0_9.index (pointOf (i 0)) (0 : Fin 2) * 8192 ≤ (i 0).val ∧ (i 0).val < win0_9.index (pointOf (i 0)) (0 : Fin 2) * 8192 + 8192; omega
  | ⟨1, _⟩ => show win0_9.index (pointOf (i 0)) (1 : Fin 2) * 1 ≤ (i 1).val ∧ (i 1).val < win0_9.index (pointOf (i 0)) (1 : Fin 2) * 1 + 1; omega

/-- So each result array ends holding its layer over the whole batch. -/
theorem final7 (c : Dev nD) : (dats m 0 c).arrAt 7 cfg0.N = layer1 m c :=
  (dats m 0 c).arrAt_eq_of_cover 7 (layer1 m c) (fun t _ => flushed7_eq m c t) cover7
theorem final8 (c : Dev nD) : (dats m 0 c).arrAt 8 cfg0.N = layer2 m c :=
  (dats m 0 c).arrAt_eq_of_cover 8 (layer2 m c) (fun t _ => flushed8_eq m c t) cover8
theorem final9 (c : Dev nD) : (dats m 0 c).arrAt 9 cfg0.N = layer3 m c :=
  (dats m 0 c).arrAt_eq_of_cover 9 (layer3 m c) (fun t _ => flushed9_eq m c t) cover9

/-! ## The host line after the region -/

/-- The program's first result: the output column flattened to a vector. -/
abbrev outvec (c : Dev nD) : S8388608.Idx → F .f32 := shapeCast S8388608 (layer3 m c) shapeCasts_S8388608x1_S8388608

theorem tail_result (c : Dev nD) :
    Pipeline.afterTail₀ cfgs (dats m) 0 (V0 m) [hostOps1] c main_v1 = outvec m c := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0_2)
      = layer3 m c :=
    (Pipeline.withArrays_arr spec0 launch0.win.arr_inj c (V0 m c) (fun w => (dats m 0 c).arrAt w cfg0.N) 9).trans (final9 m c)
  rw [e]
  rfl

/-! ## The run -/

/-- Every weakly fair execution of the kernel program terminates with the first result at the flattened output column,
    the second at the first hidden layer, the third at the second hidden layer, and the seven arguments unchanged. -/
theorem run : θ_run defs (onTc (τ := τ) (main (F := F))) ⟨m, fun _ => 0, ρ⟩ fun r => ∀ c : Dev nD,
      r.2.mem ((c.tc : Thread nD τ).loc main_v1) = outvec m c
      ∧ r.2.mem ((c.tc : Thread nD τ).loc main_v0_0) = layer1 m c
      ∧ r.2.mem ((c.tc : Thread nD τ).loc main_v0_1) = layer2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).2 main_v1 (Pipeline.mem_restRefs_of main_v1 (by decide) (by decide))).trans (tail_result m c),
      ((h c).1 7).trans (final7 m c),
      ((h c).1 8).trans (final8 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.Arrays

end
-- ==== Proof.RefStages.lean ====
/-
  The reference, stage by stage, is the perceptron of the specification at the ideal instance.

  Each of its layers is a matrix product with the transposed weights, then the bias, then the activation:
  `(∑ₖ x (r,k)·W (j,k)) + β j`. On the extended reals addition is commutative and associative (no subtraction, no
  cancelling: infinities do no harm), so the sum taken from the bias, left to right, is the same number. The last
  activation is spelt `1 / (1 + exp (−z))`, which is what `logistic z` denotes at the ideal instance.
-/
import proofs.«151378_j55259049230985_1_alg».proof.Proof.Gen.ReferenceIdeal.Read
import proofs.«151378_j55259049230985_1_alg».proof.Proof.Spec
import Idealize.ShloMosaic.Lib.IdealHost

noncomputable section

namespace Cert.ReferenceIdeal.Stages

open Cert.ReferenceIdeal Cert.ReferenceIdeal.Gen Cert.ReferenceIdeal.Read Idealize.ShloMosaic Idealize.ShloMosaic.ValueIdx Cert.MlpSpec

/-! ## The two orders of summation -/

theorem relu2_of_dot (β x0 w0 x1 w1 : Ideal .f32) :
    FloatOps.maximumf (FloatOps.addf (x0 * w0 + x1 * w1) β) (FloatOps.ofBits (F := Ideal) .f32 0x00000000#32) = relu2 β x0 w0 x1 w1 := by
  unfold relu2
  simp only [Ideal.addf_def, Ideal.mulf_def]
  rw [add_comm (x0 * w0 + x1 * w1) β, ← add_assoc]

theorem relu3_of_dot (β x0 w0 x1 w1 x2 w2 : Ideal .f32) :
    FloatOps.maximumf (FloatOps.addf (x0 * w0 + x1 * w1 + x2 * w2) β) (FloatOps.ofBits (F := Ideal) .f32 0x00000000#32)
      = relu3 β x0 w0 x1 w1 x2 w2 := by
  unfold relu3
  simp only [Ideal.addf_def, Ideal.mulf_def]
  rw [add_comm (x0 * w0 + x1 * w1 + x2 * w2) β, ← add_assoc, ← add_assoc]

theorem sigm2_of_dot (β x0 w0 x1 w1 : Ideal .f32) :
    FloatOps.hostDivf (FloatOps.ofBits (F := Ideal) .f32 0x3F800000#32)
        (FloatOps.addf (FloatOps.ofBits (F := Ideal) .f32 0x3F800000#32)
          (FloatOps.hostUnary .exp (FloatOps.hostNegf (FloatOps.addf (x0 * w0 + x1 * w1) β))))
      = sigm2 β x0 w0 x1 w1 := by
  unfold sigm2
  simp only [Ideal.hostDivf_def, Ideal.addf_def, Ideal.mulf_def, Ideal.hostUnary_exp_def, Ideal.hostNegf_def, Ideal.negf_def,
    Ideal.ofBits_def, Ideal.ofBits_one_f32, Ideal.logistic_def, Ideal.logistic]
  rw [add_comm (x0 * w0 + x1 * w1) β, ← add_assoc]

/-! ## Where each stage reads its operands -/

theorem lhs1 (i : S8388608x3.Idx) (k : Fin 2) : lidx_main_v1 i k = ix2 (i 0) k :=
  funext fun a => Fin.ext (by match a with | ⟨0, _⟩ => rfl | ⟨1, _⟩ => rfl)
theorem rhs1 (i : S8388608x3.Idx) (k : Fin 2) : idx_main_v0 (ridx_main_v1 i k) = ix2 (i 1) k :=
  funext fun a => Fin.ext (by match a with | ⟨0, _⟩ => rfl | ⟨1, _⟩ => rfl)
theorem bias1 (i : S8388608x3.Idx) : idx_main_v2 (idx_main_v3 i) = ix1 (i 1) :=
  funext fun a => Fin.ext (by match a with | ⟨0, _⟩ => rfl)

theorem lhs2 (i : S8388608x2.Idx) (k : Fin 3) : lidx_main_v7 i k = ix2 (i 0) k :=
  funext fun a => Fin.ext (by match a with | ⟨0, _⟩ => rfl | ⟨1, _⟩ => rfl)
theorem rhs2 (i : S8388608x2.Idx) (k : Fin 3) : idx_main_v6 (ridx_main_v7 i k) = ix2 (i 1) k :=
  funext fun a => Fin.ext (by match a with | ⟨0, _⟩ => rfl | ⟨1, _⟩ => rfl)
theorem bias2 (i : S8388608x2.Idx) : idx_main_v8 (idx_main_v9 i) = ix1 (i 1) :=
  funext fun a => Fin.ext (by match a with | ⟨0, _⟩ => rfl)

theorem lhs3 (i : S8388608x1.Idx) (k : Fin 2) : lidx_main_v13 i k = ix2 (i 0) k :=
  funext fun a => Fin.ext (by match a with | ⟨0, _⟩ => rfl | ⟨1, _⟩ => rfl)
theorem rhs3 (i : S8388608x1.Idx) (k : Fin 2) : idx_main_v12 (ridx_main_v13 i k) = ix2 (i 1) k :=
  funext fun a => Fin.ext (by match a with | ⟨0, _⟩ => rfl | ⟨1, _⟩ => rfl)
theorem bias3 (i : S8388608x1.Idx) : idx_main_v14 (idx_main_v15 i) = ix1 (i 1) :=
  funext fun a => Fin.ext (by
    match a with
    | ⟨0, _⟩ =>
      have h1 : (i 1).val < 1 := (i 1).isLt
      show 0 = (i 1).val
      omega)

/-! ## The three results -/

variable (X : (⟨S8388608x2, .f32⟩ : BufTy).Contents (Elt Ideal)) (W1 : (⟨S3x2, .f32⟩ : BufTy).Contents (Elt Ideal))
  (b1 : (⟨S3, .f32⟩ : BufTy).Contents (Elt Ideal)) (W2 : (⟨S2x3, .f32⟩ : BufTy).Contents (Elt Ideal))
  (b2 : (⟨S2, .f32⟩ : BufTy).Contents (Elt Ideal)) (W3 : (⟨S1x2, .f32⟩ : BufTy).Contents (Elt Ideal))
  (b3 : (⟨S1, .f32⟩ : BufTy).Contents (Elt Ideal))

/-- The second result is the first hidden layer. -/
theorem first_layer : val_main_v5 (F := Ideal) X W1 b1 = hidden1 (F := Ideal) X W1 b1 := by
  funext i
  rw [val_main_v5_apply, val_main_v4_apply, val_main_v1_apply, val_main_v3_apply, val_main_v2_apply,
    val_main_call0_v0_apply, val_main_call0_cst_apply, Fin.sum_univ_two, val_main_v0_apply, val_main_v0_apply,
    lhs1, lhs1, rhs1, rhs1, bias1]
  exact relu2_of_dot _ _ _ _ _

/-- The third result is the second hidden layer over the first. -/
theorem second_layer : val_main_v11 (F := Ideal) X W1 b1 W2 b2 = hidden2 (F := Ideal) (hidden1 X W1 b1) W2 b2 := by
  funext i
  rw [val_main_v11_apply, val_main_v10_apply, val_main_v7_apply, val_main_v9_apply, val_main_v8_apply,
    val_main_call1_v0_apply, val_main_call1_cst_apply, Fin.sum_univ_three, val_main_v6_apply, val_main_v6_apply,
    val_main_v6_apply, lhs2, lhs2, lhs2, rhs2, rhs2, rhs2, bias2, first_layer]
  exact relu3_of_dot _ _ _ _ _ _ _

/-- The output before its last reshape: the output column over the second hidden layer. -/
theorem output_column (i : S8388608x1.Idx) :
    FloatOps.hostDivf (FloatOps.ofBits (F := Ideal) .f32 0x3F800000#32)
        (FloatOps.addf (FloatOps.ofBits (F := Ideal) .f32 0x3F800000#32)
          (FloatOps.hostUnary .exp (FloatOps.hostNegf (val_main_v16 (F := Ideal) X W1 b1 W2 b2 W3 b3 i))))
      = outcol (F := Ideal) (hidden2 (hidden1 X W1 b1) W2 b2) W3 b3 i := by
  rw [val_main_v16_apply, val_main_v13_apply, val_main_v15_apply, val_main_v14_apply, Fin.sum_univ_two,
    val_main_v12_apply, val_main_v12_apply, lhs3, lhs3, rhs3, rhs3, bias3, second_layer]
  exact sigm2_of_dot _ _ _ _ _

/-- The first result: that column read as a vector. -/
theorem output : val_main_v23 (F := Ideal) X W1 b1 W2 b2 W3 b3
    = shapeCast S8388608 (outcol (F := Ideal) (hidden2 (hidden1 X W1 b1) W2 b2) W3 b3) shapeCasts_S8388608x1_S8388608 := by
  funext i
  rw [val_main_v23_apply, val_main_v22_apply, val_main_cst_0_apply, val_main_v21_apply, val_main_v20_apply, val_main_cst_apply,
    val_main_v19_apply, val_main_v18_apply, val_main_v17_apply, output_column]
  exact (shapeCast_apply _ shapeCasts_S8388608x1_S8388608 i (idx_main_v17 i)
    (by rewrite [Shape.rowMajor_val_two, Shape.rowMajor_val_one]; show ((i 0).val) / 1 * 1 + 0 = (i 0).val; omega)).symm

end Cert.ReferenceIdeal.Stages

end
-- ==== Proof.lean ====
/-
  A three-layer perceptron 2 → 3 → 2 → 1 over a batch of 8388608 rows: a kernel that tiles the batch into 1024 blocks of
  8192 rows and evaluates every layer column by column on the vector unit, against `relu (x·W₁ᵀ + β₁)`,
  `relu (h₁·W₂ᵀ + β₂)`, `sigmoid (h₂·W₃ᵀ + β₃)` computed with matrix products on the host.

  Over the extended reals the two are one function of the seven arguments, entry by entry:
  * a layer's entry `(r, j)` is `β j + ∑ₖ x (r,k)·W (j,k)`; the kernel adds from the bias, left to right, the reference adds
    the bias last, and addition of extended reals is commutative and associative (no law that fails at an infinity is
    used, so the finiteness of the inputs is never opened);
  * the rectifier is `max · 0` on both sides, with the same zero;
  * the kernel's `logistic z` and the reference's `1 / (1 + exp (−z))` denote the same extended real;
  * every layer is row-local, so the row blocks the grid writes back are the rows of the layer over the whole batch, and
    the blocks tile the results; the output column `[8388608, 1]` is flattened to `[8388608]` by the same reshape.

  Proof/Spec.lean states the layers; Proof/KernelBlock.lean, Proof/KernelArrays.lean and Proof/KernelRun.lean read the kernel's
  run; Proof/RefStages.lean reads the reference's.
-/
import proofs.«151378_j55259049230985_1_alg».proof.Defs
import proofs.«151378_j55259049230985_1_alg».proof.Proof.Gen.Kernel
import proofs.«151378_j55259049230985_1_alg».proof.Proof.Gen.Kernel.Frame
import proofs.«151378_j55259049230985_1_alg».proof.Proof.Gen.KernelIdeal
import proofs.«151378_j55259049230985_1_alg».proof.Proof.Gen.KernelIdeal.Frame
import proofs.«151378_j55259049230985_1_alg».proof.Proof.Gen.ReferenceIdeal
import proofs.«151378_j55259049230985_1_alg».proof.Proof.Gen.ReferenceIdeal.Run
import proofs.«151378_j55259049230985_1_alg».proof.Proof.Gen.ReferenceIdeal.Read
import proofs.«151378_j55259049230985_1_alg».proof.Proof.Gen.Pre_finite_inputs
import proofs.«151378_j55259049230985_1_alg».proof.Proof.KernelRun
import proofs.«151378_j55259049230985_1_alg».proof.Proof.RefStages

noncomputable section

namespace Cert.Proof

open Idealize.ShloMosaic Idealize.ShloMosaic.TcCoe Idealize.SL.Sem

/-- The word-level kernel runs and leaves its arguments. -/
theorem frame_kernel : Cert.frame_Kernel := fun m ρ _ => Cert.Kernel.Gen.frame m ρ

/-- So does the kernel read at the ideal instance. -/
theorem frame_kernel_ideal : Cert.frame_KernelIdeal := fun m ρ _ => Cert.KernelIdeal.Gen.frame m ρ

/-- The reference's run, its results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- Both programs end with the flattened output column, the first hidden layer and the second hidden layer of the
    perceptron over the arguments they agree on. -/
theorem algebraic : Cert.algebraic_KernelIdeal_ReferenceIdeal := by
  intro m ρ m' ρ' _ hagree
  refine ⟨fun c => Cert.KernelIdeal.Arrays.outvec m c, fun c => Cert.KernelIdeal.Arrays.layer1 m c,
    fun c => Cert.KernelIdeal.Arrays.layer2 m c, Cert.KernelIdeal.Arrays.run (F := Ideal) m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · obtain ⟨e0, e1, e2, e3, e4, e5, e6⟩ := hagree c
    rw [e0, e1, e2, e3, e4, e5, e6]
    exact (Cert.ReferenceIdeal.Read.val_main_v23_eq _ _ _ _ _ _ _).trans (Cert.ReferenceIdeal.Stages.output _ _ _ _ _ _ _)
  · obtain ⟨e0, e1, e2, -⟩ := hagree c
    rw [e0, e1, e2]
    exact (Cert.ReferenceIdeal.Read.val_main_v5_eq _ _ _).trans (Cert.ReferenceIdeal.Stages.first_layer _ _ _)
  · obtain ⟨e0, e1, e2, e3, e4, -⟩ := hagree c
    rw [e0, e1, e2, e3, e4]
    exact (Cert.ReferenceIdeal.Read.val_main_v11_eq _ _ _ _ _).trans (Cert.ReferenceIdeal.Stages.second_layer _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
